-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024x256 : Shape := ⟨2, ![1024, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S131072x256 .f32) (main_arg1 : FVec F S1024x256 .f32) (main_arg2 : FVec F S1024x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S131072x256 : Shape := ⟨2, ![131072, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S131072x256, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S512x256, .f32⟩
  | .local _ .vmem, ⟨6, _⟩ => ⟨S512x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x256_S1024_d1 : S1024x256.ReducesTo [1] S1024
  h_S_ : 0 < S_.numel
  shapeCasts_S1024_S1x1024 : S1024.ShapeCasts S1x1024
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x256_S512 : S512x256.Reduces [1] S512
  shapeCasts_S512_S512x1 : S512.ShapeCasts S512x1
  bitsLt_bf16_f32 : FTy.bits .bf16 < FTy.bits .f32
  broadcasts_S512x1_S512x1024 : S512x1.Broadcasts S512x1024
  broadcasts_S1x1024_S512x1024 : S1x1024.Broadcasts S512x1024
  dot_S512x256_S1024x256_S512x1024_1_1_0_0_n_n_wf : DotDims.WF S512x256 S1024x256 S512x1024 [1] [1] [0] [0] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S131072x256.size a
  hwx0_0 : ∀ i : grid0.Coords, EltTy.bits .f32 = 32 ∨ (Rect.block (s := S131072x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S131072x256.size a
  hwx0_4 : ∀ i : grid0.Coords, EltTy.bits .f32 = 32 ∨ (Rect.block (s := S131072x256) S512x256.size (cc0_transform_4 i) (hinb0_4 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S1024x256 : Shape := ⟨2, ![1024, 256]⟩
abbrev S_ : Shape := ⟨0, ![]⟩
abbrev S131072 : Shape := ⟨1, ![131072]⟩
abbrev S131072x1 : Shape := ⟨2, ![131072, 1]⟩
abbrev S1024 : Shape := ⟨1, ![1024]⟩
abbrev S131072x1024 : Shape := ⟨2, ![131072, 1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S1024x256, .f32⟩
  | .hbm, ⟨3, _⟩ => ⟨S131072x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S131072x1024, .f32⟩
  | .hbm, ⟨11, _⟩ => ⟨S1x1024, .f32⟩
  | .hbm, ⟨12, _⟩ => ⟨S131072x1024, .f32⟩
  | .hbm, ⟨13, _⟩ => ⟨S131072x1024, .f32⟩
  | .hbm, ⟨14, _⟩ => ⟨S131072x1024, .f32⟩
  | .hbm, ⟨15, _⟩ => ⟨S_, .f32⟩
  | .hbm, ⟨16, _⟩ => ⟨S131072x1024, .f32⟩
  | .hbm, ⟨17, _⟩ => ⟨S131072x1024, .f32⟩
  | .hbm, ⟨18, _⟩ => ⟨S131072x1024, .f32⟩
  | .hbm, ⟨19, _⟩ => ⟨S131072x1024, .f32⟩
  | .hbm, ⟨20, _⟩ => ⟨S_, .f32⟩
  | .hbm, ⟨21, _⟩ => ⟨S131072x1024, .f32⟩
  | .hbm, ⟨22, _⟩ => ⟨S131072x1024, .f32⟩
  | .hbm, ⟨23, _⟩ => ⟨S131072x1024, .f32⟩
  | .hbm, ⟨24, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S1024x256_S1024_d1 : S1024x256.ReducesTo [1] S1024
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  dot_S131072x256_S1024x256_S131072x1024_1_1_0_0_n_n_wf : DotDims.WF S131072x256 S1024x256 S131072x1024 [1] [1] [0] [0] [] []
  dot_S131072x1024_S1024x256_S131072x256_1_0_0_1_n_n_wf : DotDims.WF S131072x1024 S1024x256 S131072x256 [1] [0] [0] [1] [] []

variable [Facts₀]

def dot_S131072x256_S1024x256_S131072x1024_1_1_0_0_n_n : DotDims S131072x256 S1024x256 S131072x1024 where
  lhsContracting := [1]
  rhsContracting := [1]
  lhsNonContracting := [0]
  rhsNonContracting := [0]
  lhsBatch := []
  rhsBatch := []
  wf := dot_S131072x256_S1024x256_S131072x1024_1_1_0_0_n_n_wf
def dot_S131072x1024_S1024x256_S131072x256_1_0_0_1_n_n : DotDims S131072x1024 S1024x256 S131072x256 where
  lhsContracting := [1]
  rhsContracting := [0]
  lhsNonContracting := [0]
  rhsNonContracting := [1]
  lhsBatch := []
  rhsBatch := []
  wf := dot_S131072x1024_S1024x256_S131072x256_1_0_0_1_n_n_wf

class Facts : Prop extends Facts₀ where

variable [Facts]
-- ==== Proof.RbfSpec.lean ====
/-
  The radial-basis operator as ONE function of its three arrays, index by index over the extended reals.

  For rows `x_b` (b < n), prototypes `p_q` and projection rows `w_q` (q < 1024), all of length 256:

      out[b, d] = ∑_q  exp( -( (‖x_b‖² + ‖p_q‖²) - 2·⟨x_b, p_q⟩ ) / 2 ) · w[q, d]

  with ‖a_r‖² = ∑_k a[r,k]·a[r,k] and ⟨x_b, p_q⟩ = ∑_k x[b,k]·p[q,k].  The number of rows `n` is a parameter:
  the same function is read over the whole array (n = 131072) and over one block of 512 rows, and a block of
  rows of `x` gives the matching block of rows of the result (`rbf_congr_rows`), because row `b` of the result
  depends on row `b` of `x` only.

  The two programs spell the halving differently: one multiplies `0 - dist` by the word 0.5, the other divides
  `-dist` by the word 2.0.  On the extended reals division by a nonzero real IS multiplication by its inverse,
  at the infinities too, so the two agree for every `dist` (`halve_eq`): no finiteness is used anywhere.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- An array of `n` rows of length `c`, over the extended reals. -/
abbrev Mat (n c : Nat) : Type := (⟨2, ![n, c]⟩ : Shape).Idx → EReal

/-! ## The words the programs spell -/

/-- The word `2.0` denotes the real 2. -/
theorem word_two : Ideal.ofBits .f32 0x40000000#32 = ((2 : ℝ) : EReal) := by
  simp [Ideal.ofBits, Ideal.ieee, -EReal.coe_mul]; norm_num

/-- The word `0.5` denotes the real 1/2. -/
theorem word_half : Ideal.ofBits .f32 0x3F000000#32 = ((1 / 2 : ℝ) : EReal) := by
  simp [Ideal.ofBits, Ideal.ieee, -EReal.coe_mul]; norm_num

/-- Halving a negated distance, both spellings: `(0 - d) · 0.5 = (-d) / 2` on every extended real. -/
theorem halve_eq (d : EReal) :
    (Ideal.ofBits .f32 0x00000000#32 - d) * Ideal.ofBits .f32 0x3F000000#32
      = Ideal.div (-d) (Ideal.ofBits .f32 0x40000000#32) := by
  rw [Ideal.ofBits_zero_f32, word_two, word_half, Ideal.div_coe (by norm_num : (2 : ℝ) ≠ 0), sub_eq_add_neg, zero_add]

/-! ## The operator -/

/-- ‖a_r‖²: the sum of the squares of row `r`. -/
def rowSq {n : Nat} (a : Mat n 256) (r : Fin n) : EReal := ∑ k : Fin 256, a (ix2 r k) * a (ix2 r k)

/-- ⟨x_b, p_q⟩: the inner product of row `b` of `x` with row `q` of `p`. -/
def inner {n : Nat} (x : Mat n 256) (p : Mat 1024 256) (b : Fin n) (q : Fin 1024) : EReal :=
  ∑ k : Fin 256, x (ix2 b k) * p (ix2 q k)

/-- The radial weight from the two squared norms `a`, `s` and the inner product `c`:
    `exp(-((a + s) - 2·c) / 2)`. -/
def weight (a s c : EReal) : EReal :=
  Ideal.exp (Ideal.div (-((a + s) - Ideal.ofBits .f32 0x40000000#32 * c)) (Ideal.ofBits .f32 0x40000000#32))

/-- The same weight as the kernel spells it: `exp((0 - ((a + s) - 2·c)) · 0.5)`. -/
theorem weight_eq_mul_half (a s c : EReal) :
    Ideal.exp ((Ideal.ofBits .f32 0x00000000#32 - ((a + s) - Ideal.ofBits .f32 0x40000000#32 * c)) * Ideal.ofBits .f32 0x3F000000#32)
      = weight a s c := by
  unfold weight; rw [halve_eq]

/-- The operator: `out[b, d] = ∑_q weight(‖x_b‖², ‖p_q‖², ⟨x_b, p_q⟩) · w[q, d]`. -/
def rbf {n : Nat} (x : Mat n 256) (p w : Mat 1024 256) : Mat n 256 :=
  fun i => ∑ q : Fin 1024, weight (rowSq x (i 0)) (rowSq p q) (inner x p (i 0) q) * w (ix2 q (i 1))

/-- At explicit coordinates. -/
theorem rbf_ix2 {n : Nat} (x : Mat n 256) (p w : Mat 1024 256) (b : Fin n) (d : Fin 256) :
    rbf x p w (ix2 b d) = ∑ q : Fin 1024, weight (rowSq x b) (rowSq p q) (inner x p b q) * w (ix2 q d) := rfl

/-- Row `b` of the result depends on row `b` of `x` only: if row `r` of `x'` is row `b` of `x`, then row `r` of
    `rbf x'` is row `b` of `rbf x`. -/
theorem rbf_congr_rows {n n' : Nat} (x : Mat n 256) (x' : Mat n' 256) (p w : Mat 1024 256) (b : Fin n) (r : Fin n')
    (h : ∀ k : Fin 256, x' (ix2 r k) = x (ix2 b k)) (d : Fin 256) :
    rbf x' p w (ix2 r d) = rbf x p w (ix2 b d) := by
  rw [rbf_ix2, rbf_ix2]
  have hs : rowSq x' r = rowSq x b := Finset.sum_congr rfl fun k _ => by rw [h k]
  have hi : ∀ q, inner x' p r q = inner x p b q := fun q => Finset.sum_congr rfl fun k _ => by rw [h k]
  exact Finset.sum_congr rfl fun q _ => by rw [hs, hi q]

end Cert.Rbf

end
-- ==== Proof.RbfBlock.lean ====
/-
  One grid point of the kernel computes the operator on its block of rows.

  The body's arithmetic at one point is a pure function of four loaded blocks: 512 rows `x0` of `x`, all of the
  prototypes `x1`, all of the projection `x2`, and the row `x3` of the prototypes' squared norms.  Read at
  `(r, d)` it is

      ∑_q exp((0 - ((‖x0_r‖² + x3[0,q]) - 2·⟨x0_r, x1_q⟩)) · 0.5) · x2[q, d]:

  the row sums of squares become a column broadcast along `q`, the norm row is broadcast along `r`, the first
  matrix product contracts the two last axes, the second contracts `q`; the changes of float format are the
  identity on extended reals and both products accumulate into the zero array.  With the two spellings of the
  halving identified (`Cert.Rbf.weight_eq_mul_half`) this is the operator's formula with `x3[0,q]` in the place
  of ‖p_q‖².
-/
import proofs.«156397_j43069932044620_1_alg».proof.Proof.Gen.KernelIdeal.Skeleton
import proofs.«156397_j43069932044620_1_alg».proof.Proof.RbfSpec
import Idealize.ShloMosaic.Lib.Pipeline.Value
import Idealize.ShloMosaic.Lib.ValueIdx
import Idealize.ShloMosaic.PureOps.Ideal.Laws

noncomputable section

namespace Cert.Rbf.Block

open Cert.KernelIdeal Cert.KernelIdeal.Gen
open Idealize.ShloMosaic Idealize.ShloMosaic.ValueIdx Cert.Rbf

/-! ## The body's three re-laid pieces -/

/-- The rows' sums of squares, as a column, broadcast along the prototypes. -/
def normCol (x0 : FVec Ideal S512x256 .f32) : FVec Ideal S512x1024 .f32 :=
  broadcastTo S512x1024
    (shapeCast S512x1 (multiReduction .add [1] S512 (mulf x0 x0) 0x00000000#32 reduces_S512x256_S512 (.inl rfl) rfl) shapeCasts_S512_S512x1)
    broadcasts_S512x1_S512x1024

/-- The prototypes' squared norms, a row, broadcast along the block's rows. -/
def normRow (x3 : FVec Ideal S1x1024 .f32) : FVec Ideal S512x1024 .f32 :=
  broadcastTo S512x1024 (shapeCast S1x1024 x3 shapeCasts_S1x1024_S1x1024) broadcasts_S1x1024_S512x1024

/-- The block's rows against every prototype. -/
def crossBlk (x0 : FVec Ideal S512x256 .f32) (x1 : FVec Ideal S1024x256 .f32) : FVec Ideal S512x1024 .f32 :=
  matmul dot_S512x256_S1024x256_S512x1024_1_1_0_0_n_n none (truncf .bf16 x0 bitsLt_bf16_f32) (truncf .bf16 x1 bitsLt_bf16_f32)
    (constant (F := Ideal) S512x1024 .f32 0x00000000#32)

/-- The radial weights of the block's rows against every prototype, as the body spells them. -/
def weightBlk (x0 : FVec Ideal S512x256 .f32) (x1 : FVec Ideal S1024x256 .f32) (x3 : FVec Ideal S1x1024 .f32) :
    FVec Ideal S512x1024 .f32 :=
  exp (mulf (subf (broadcast S512x1024 (Scalar.ofBits .f32 0x00000000#32))
      (subf (addf (normCol x0) (normRow x3)) (mulf (broadcast S512x1024 (Scalar.ofBits .f32 0x40000000#32)) (crossBlk x0 x1))))
    (broadcast S512x1024 (Scalar.ofBits .f32 0x3F000000#32)))

/-- The body's payload is the weights times the projection. -/
theorem payload_eq (x0 : FVec Ideal S512x256 .f32) (x1 x2 : FVec Ideal S1024x256 .f32) (x3 : FVec Ideal S1x1024 .f32) :
    k0_pay1 (F := Ideal) x0 x1 x2 x3
      = matmul dot_S512x1024_S1024x256_S512x256_1_0_0_1_n_n none (truncf .bf16 (weightBlk x0 x1 x3) bitsLt_bf16_f32)
          (truncf .bf16 x2 bitsLt_bf16_f32) (constant (F := Ideal) S512x256 .f32 0x00000000#32) := rfl

/-! ## Each piece at an index -/

/-- The column of squared norms at `(r, q)` is ‖x0_r‖². -/
theorem normCol_apply (x0 : FVec Ideal S512x256 .f32) (r : Fin 512) (q : Fin 1024) :
    normCol x0 (ix2 r q) = rowSq (n := 512) x0 r := by
  unfold normCol
  refine (broadcastTo_apply _ broadcasts_S512x1_S512x1024 (ix2 r q) (ix2 r (0 : Fin 1)) (fun a => by
    match a with
    | ⟨0, _⟩ => show r.val = if (512 : Nat) = 1 then 0 else r.val; rw [if_neg (by decide)]
    | ⟨1, _⟩ => show 0 = if (1 : Nat) = 1 then 0 else _; rw [if_pos rfl])).trans ?_
  refine (shapeCast_apply _ shapeCasts_S512_S512x1 (ix2 r (0 : Fin 1)) (ix1 r) (by
    rw [Shape.rowMajor_val_two, Shape.rowMajor_val_one]
    show r.val = r.val * 1 + 0
    omega)).trans ?_
  refine (Ideal.multiReduction_add_single (mulf x0 x0) 0x00000000#32 reduces_S512x256_S512 (.inl rfl) rfl (ix1 r)).trans ?_
  refine Finset.sum_congr rfl fun k _ => ?_
  have e : reduces_S512x256_S512.lift (ix1 r) k = ix2 r k :=
    funext fun c => Fin.ext (by match c with | ⟨0, _⟩ => rfl | ⟨1, _⟩ => rfl)
  rw [e]
  rfl

/-- The row of prototype norms at `(r, q)` is the loaded row at `q`. -/
theorem normRow_apply (x3 : FVec Ideal S1x1024 .f32) (r : Fin 512) (q : Fin 1024) :
    normRow x3 (ix2 r q) = x3 (ix2 (0 : Fin 1) q) := by
  unfold normRow
  rw [shapeCast_self]
  exact broadcastTo_apply _ broadcasts_S1x1024_S512x1024 (ix2 r q) (ix2 (0 : Fin 1) q) (fun a => by
    match a with
    | ⟨0, _⟩ => show 0 = if (1 : Nat) = 1 then 0 else _; rw [if_pos rfl]
    | ⟨1, _⟩ => show q.val = if (1024 : Nat) = 1 then 0 else q.val; rw [if_neg (by decide)])

/-! ## The two matrix products at an index -/

theorem crossL0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem crossL1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem crossR0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem crossR1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- The first product at `(r, q)` is ⟨x0_r, x1_q⟩: both operands are contracted along their last axis. -/
theorem crossBlk_apply (x0 : FVec Ideal S512x256 .f32) (x1 : FVec Ideal S1024x256 .f32) (r : Fin 512) (q : Fin 1024) :
    crossBlk x0 x1 (ix2 r q) = inner (n := 512) x0 x1 r q := by
  unfold crossBlk
  refine (Ideal.matmul_constant_zero_apply dot_S512x256_S1024x256_S512x1024_1_1_0_0_n_n none _ _ (ix2 r q)).trans ?_
  rw [← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 r q) ((contrEquiv1 dot_S512x256_S1024x256_S512x1024_1_1_0_0_n_n 256 rfl rfl).symm k) = ix2 r k := funext fun a => Fin.ext (by
    match a with
    | ⟨0, _⟩ => exact crossL0 _ _
    | ⟨1, _⟩ => exact (crossL1 _ _).trans hk)
  have er : dot_S512x256_S1024x256_S512x1024_1_1_0_0_n_n.rhsIdx (ix2 r q) ((contrEquiv1 dot_S512x256_S1024x256_S512x1024_1_1_0_0_n_n 256 rfl rfl).symm k) = ix2 q k := funext fun a => Fin.ext (by
    match a with
    | ⟨0, _⟩ => exact crossR0 _ _
    | ⟨1, _⟩ => exact (crossR1 _ _).trans hk)
  rw [el, er]
  rfl

theorem outL0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem outL1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem outR0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem outR1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The second product at `(r, d)`: the sum over the prototypes of the left operand at `(r, q)` times the right at `(q, d)`. -/
theorem outer_apply (a : FVec Ideal S512x1024 .bf16) (b : FVec Ideal S1024x256 .bf16) (r : Fin 512) (d : Fin 256) :
    matmul dot_S512x1024_S1024x256_S512x256_1_0_0_1_n_n none a b (constant (F := Ideal) S512x256 .f32 0x00000000#32) (ix2 r d)
      = ∑ q : Fin 1024, a (ix2 r q) * b (ix2 q d) := by
  refine (Ideal.matmul_constant_zero_apply dot_S512x1024_S1024x256_S512x256_1_0_0_1_n_n none a b (ix2 r d)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r d) ((contrEquiv1 dot_S512x1024_S1024x256_S512x256_1_0_0_1_n_n 1024 rfl rfl).symm k) = ix2 r k := funext fun a => Fin.ext (by
    match a with
    | ⟨0, _⟩ => exact outL0 _ _
    | ⟨1, _⟩ => exact (outL1 _ _).trans hk)
  have er : dot_S512x1024_S1024x256_S512x256_1_0_0_1_n_n.rhsIdx (ix2 r d) ((contrEquiv1 dot_S512x1024_S1024x256_S512x256_1_0_0_1_n_n 1024 rfl rfl).symm k) = ix2 k d := funext fun a => Fin.ext (by
    match a with
    | ⟨0, _⟩ => exact (outR0 _ _).trans hk
    | ⟨1, _⟩ => exact outR1 _ _)
  rw [el, er]

/-! ## The payload at an index -/

/-- The weights at `(r, q)`: the radial weight of row `r` of the block against prototype `q`, with the loaded norm. -/
theorem weightBlk_apply (x0 : FVec Ideal S512x256 .f32) (x1 : FVec Ideal S1024x256 .f32) (x3 : FVec Ideal S1x1024 .f32)
    (r : Fin 512) (q : Fin 1024) :
    weightBlk x0 x1 x3 (ix2 r q) = weight (rowSq (n := 512) x0 r) (x3 (ix2 (0 : Fin 1) q)) (inner (n := 512) x0 x1 r q) := by
  rw [← weight_eq_mul_half, ← normCol_apply x0 r q, ← normRow_apply x3 r q, ← crossBlk_apply x0 x1 r q]
  rfl

/-- THE BLOCK: the payload at `(r, d)` is the operator's sum over the prototypes, with the loaded norm row. -/
theorem payload_apply (x0 : FVec Ideal S512x256 .f32) (x1 x2 : FVec Ideal S1024x256 .f32) (x3 : FVec Ideal S1x1024 .f32)
    (r : Fin 512) (d : Fin 256) :
    k0_pay1 (F := Ideal) x0 x1 x2 x3 (ix2 r d)
      = ∑ q : Fin 1024, weight (rowSq (n := 512) x0 r) (x3 (ix2 (0 : Fin 1) q)) (inner (n := 512) x0 x1 r q) * x2 (ix2 q d) := by
  rw [payload_eq]
  refine (outer_apply _ _ r d).trans ?_
  refine Finset.sum_congr rfl fun q _ => ?_
  rw [← weightBlk_apply x0 x1 x3 r q]
  rfl

/-- THE BLOCK AGAINST THE WHOLE ARRAYS: if row `r` of the loaded block is row `b` of `X`, the two resident blocks are
    all of `P` and `W`, and the loaded norm row holds ‖P_q‖², then the payload at `(r, d)` is the operator of the whole
    arrays at `(b, d)`. -/
theorem payload_rbf {n : Nat} (X : Mat n 256) (P W : Mat 1024 256)
    (x0 : FVec Ideal S512x256 .f32) (x1 x2 : FVec Ideal S1024x256 .f32) (x3 : FVec Ideal S1x1024 .f32)
    (b : Fin n) (r : Fin 512) (d : Fin 256)
    (h0 : ∀ k : Fin 256, x0 (ix2 r k) = X (ix2 b k)) (h1 : x1 = P) (h2 : x2 = W)
    (h3 : ∀ q : Fin 1024, x3 (ix2 (0 : Fin 1) q) = rowSq (n := 1024) P q) :
    k0_pay1 (F := Ideal) x0 x1 x2 x3 (ix2 r d) = rbf X P W (ix2 b d) := by
  subst h1 h2
  rw [payload_apply, ← rbf_congr_rows X x0 x1 x2 b r h0 d, rbf_ix2]
  exact Finset.sum_congr rfl fun q _ => by rw [h3 q]

/-- The host's row sum of squares with the word 0 as its start, at `q`, is ‖p_q‖². -/
theorem hostNorm_apply (p : FVec Ideal S1024x256 .f32) (q : Fin 1024) :
    Host.reduceAdd (F := Ideal) (mulf p p) (constant (F := Ideal) S_ .f32 0x00000000#32) reducesTo_S1024x256_S1024_d1 h_S_ (ix1 q)
      = rowSq (n := 1024) p q := by
  generalize hy : mulf p p = y0
  simp only [Host.reduceAdd, Ideal.hostReduceAdd_def]
  rw [Ideal.hostReduceAdd_single reducesTo_S1024x256_S1024_d1 (by decide)]
  show Ideal.ofBits .f32 0x00000000#32 + _ = _
  rw [Ideal.ofBits_zero_f32, zero_add]
  subst hy
  refine Finset.sum_congr rfl fun k _ => ?_
  have e : (by decide : S1024x256.Reduces [1] S1024).lift (ix1 q) k = ix2 q k :=
    funext fun c => Fin.ext (by match c with | ⟨0, _⟩ => rfl | ⟨1, _⟩ => rfl)
  rw [e]
  rfl

end Cert.Rbf.Block

end
-- ==== Proof.RbfKernel.lean ====
/-
  The kernel's result array is the operator of its three argument arrays.

  The grid has 256 points; point `t` stages rows `512·t … 512·t + 511` of `x`, all of the prototypes, all of the
  projection and the whole row of prototype norms (which the host wrote before the region: each prototype row's sum of
  squares, re-laid as one row), and writes back rows `512·t … 512·t + 511` of the result.  So what point `t` writes
  back is block `t` of the operator of the whole arrays (`Cert.Rbf.Block.payload_rbf`), the 256 blocks cover every
  row (row `b` is in block `b / 512`), and the array after the run is the operator.
-/
import proofs.«156397_j43069932044620_1_alg».proof.Proof.Gen.KernelIdeal.Value
import proofs.«156397_j43069932044620_1_alg».proof.Proof.RbfBlock
import Idealize.ShloMosaic.Lib.Pipeline.Value
import Idealize.ShloMosaic.Lib.StableHlo.Run

noncomputable section

namespace Cert.Rbf.Kernel

open Cert.KernelIdeal Cert.KernelIdeal.Gen Cert.KernelIdeal.Value
open Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

/-- The three argument arrays as launched. -/
abbrev X (c : Dev nD) : Mat 131072 256 := m ((c : Thread nD τ).loc main_arg0)
abbrev P (c : Dev nD) : Mat 1024 256 := m ((c : Thread nD τ).loc main_arg1)
abbrev W (c : Dev nD) : Mat 1024 256 := m ((c : Thread nD τ).loc main_arg2)

theorem origin : (![0, 0] : Fin 2 → Nat) = fun _ => 0 := funext fun a => by fin_cases a <;> rfl

/-! ## The norm row the host leaves for the region -/

/-- At region entry the norm buffer holds the host's row sums of squares of the prototypes, re-laid as a row. -/
theorem norms_entry (c : Dev nD) :
    (V m c main_v2 : S1x1024.Idx → EReal)
      = shapeCast S1x1024 (Host.reduceAdd (F := Ideal) (mulf (P m c) (P m c)) (constant (F := Ideal) S_ .f32 0x00000000#32)
          reducesTo_S1024x256_S1024_d1 h_S_) shapeCasts_S1024_S1x1024 := by
  dsimp only [V, hostOps0]; after_results; rfl

/-- Its entry `q` is ‖P_q‖². -/
theorem norms_apply (c : Dev nD) (q : Fin 1024) :
    V m c main_v2 (ix2 (0 : Fin 1) q) = rowSq (n := 1024) (P m c) q := by
  refine (congrFun (norms_entry m c) (ix2 (0 : Fin 1) q)).trans ?_
  refine (shapeCast_apply _ shapeCasts_S1024_S1x1024 (ix2 (0 : Fin 1) q) (ix1 q) (by
    rw [Shape.rowMajor_val_two, Shape.rowMajor_val_one]
    show q.val = 0 * 1024 + q.val
    omega)).trans ?_
  exact Block.hostNorm_apply (P m c) q

/-! ## The windows' blocks -/

/-- The printed index maps, decided over the 256 points: the rows' window and the result's window sit at block `t`
    of their first axis, every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem pt_lt (t : Fin cfg0.N) : t.val < 256 := lt_of_lt_of_eq t.isLt N_0

/-- Row `r` of point `t`'s block is row `512·t + r` of the array. -/
def rowOf (t : Fin cfg0.N) (r : Fin 512) : Fin 131072 := ⟨t.val * 512 + r.val, by have := pt_lt t; have := r.isLt; omega⟩

/-- The rows' block at point `t`, row `r`, is row `512·t + r` of `x`. -/
theorem xblk_apply (c : Dev nD) (t : Fin cfg0.N) (r : Fin 512) (k : Fin 256) :
    (iblk m c 0 t : S512x256.Idx → EReal) (ix2 r k) = X m c (ix2 (rowOf t r) k) := by
  obtain ⟨e00, e01, -⟩ := idx_facts t
  show V m c main_arg0 (((cfg0.win 0).blk t).view.emb (ix2 r k)) = _
  rw [V_main_arg0]
  refine congrArg (X m c) (funext fun a => Fin.ext ?_)
  match a with
  | ⟨0, _⟩ => show win0_0.index t (0 : Fin 2) * 512 + 1 * r.val = t.val * 512 + r.val; omega
  | ⟨1, _⟩ => show win0_0.index t (1 : Fin 2) * 256 + 1 * k.val = k.val; omega

/-- The prototypes' block is the whole array at every point. -/
theorem pblk_eq (c : Dev nD) (t : Fin cfg0.N) : (iblk m c 1 t : S1024x256.Idx → EReal) = P m c := by
  obtain ⟨-, -, e10, e11, -⟩ := idx_facts t
  funext y
  show V m c main_arg1 (((cfg0.win 1).blk t).view.emb y) = _
  rw [V_main_arg1]
  refine congrArg (P m c) (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

/-- The projection's block is the whole array at every point. -/
theorem wblk_eq (c : Dev nD) (t : Fin cfg0.N) : (iblk m c 2 t : S1024x256.Idx → EReal) = W m c := by
  obtain ⟨-, -, -, -, e20, e21, -⟩ := idx_facts t
  funext y
  show V m c main_arg2 (((cfg0.win 2).blk t).view.emb y) = _
  rw [V_main_arg2]
  refine congrArg (W m c) (funext fun a => Fin.ext ?_)
  match a with
  | ⟨0, _⟩ => show win0_2.index t (0 : Fin 2) * 1024 + 1 * (y 0).val = (y 0).val; omega
  | ⟨1, _⟩ => show win0_2.index t (1 : Fin 2) * 256 + 1 * (y 1).val = (y 1).val; omega

/-- The norm row's block is the whole row at every point: entry `q` is ‖P_q‖². -/
theorem nblk_apply (c : Dev nD) (t : Fin cfg0.N) (q : Fin 1024) :
    (iblk m c 3 t : S1x1024.Idx → EReal) (ix2 (0 : Fin 1) q) = rowSq (n := 1024) (P m c) q := by
  obtain ⟨-, -, -, -, -, -, e30, e31, -⟩ := idx_facts t
  refine Eq.trans ?_ (norms_apply m c q)
  show V m c main_v2 (((cfg0.win 3).blk t).view.emb (ix2 (0 : Fin 1) q)) = _
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

/-! ## What a point writes back, and the cover -/

/-- WHAT POINT `t` WRITES BACK is block `t` of the operator of the whole arrays. -/
theorem flushed_eq (c : Dev nD) (t : Fin cfg0.N) :
    (dats m 0 c).flushed 4 t = ((cfg0.win 4).blk t).view.read (Elt Ideal) (rbf (n := 131072) (X m c) (P m c) (W m c)) := by
  rw [flushed4]
  unfold out0_4
  rw [View.canon_unit_zero origin]
  simp only [View.ld_unit_zero (S := S512x256) origin, View.ld_unit_zero (S := S1024x256) origin, View.ld_unit_zero (S := S1x1024) origin]
  obtain ⟨-, -, -, -, -, -, -, -, e40, e41⟩ := idx_facts t
  refine funext fun (j : S512x256.Idx) => ?_
  obtain ⟨r, d, rfl⟩ : ∃ (r : Fin 512) (d : Fin 256), j = ix2 r d := ⟨j 0, j 1, eq_ix2 j⟩
  show k0_pay1 (F := Ideal) (iblk m c 0 t) (iblk m c 1 t) (iblk m c 2 t) (iblk m c 3 t) (ix2 r d)
    = rbf (n := 131072) (X m c) (P m c) (W m c) (((cfg0.win 4).blk t).view.emb (ix2 r d))
  have hemb : ((cfg0.win 4).blk t).view.emb (ix2 r d) = ix2 (rowOf t r) d := funext fun a => Fin.ext (by
    match a with
    | ⟨0, _⟩ => show win0_4.index t (0 : Fin 2) * 512 + 1 * r.val = t.val * 512 + r.val; omega
    | ⟨1, _⟩ => show win0_4.index t (1 : Fin 2) * 256 + 1 * d.val = d.val; omega)
  rw [hemb]
  exact Block.payload_rbf (X m c) (P m c) (W m c) (iblk m c 0 t) (iblk m c 1 t) (iblk m c 2 t) (iblk m c 3 t)
    (rowOf t r) r d (xblk_apply m c t r) (pblk_eq m c t) (wblk_eq m c t) (nblk_apply m c t)

/-- An index of the array is in point `t`'s block iff each coordinate is in the block's range on its axis. -/
theorem mem_blk (t : Fin cfg0.N) (i : S131072x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v3).slice (win0_4.rect t)).set ↔ _
  rw [View.set_slice_whole, Rect.mem_set_unit]
  exact Iff.rfl

/-- Every index of the result is in some point's block: row `b` is in block `b / 512`. -/
theorem cover (i : S131072x256.Idx) :
    ∃ t : Fin cfg0.N, (cfg0.win 4).flush t = true ∧ i ∈ ((cfg0.win 4).blk t).view.set := by
  have hi0 : (i 0).val < 131072 := (i 0).isLt
  have hi1 : (i 1).val < 256 := (i 1).isLt
  have hN : (i 0).val / 512 < cfg0.N := lt_of_lt_of_eq (by omega : (i 0).val / 512 < 256) N_0.symm
  refine ⟨⟨(i 0).val / 512, hN⟩, flush0_4 _, ?_⟩
  obtain ⟨-, -, -, -, -, -, -, -, e40, e41⟩ := idx_facts ⟨(i 0).val / 512, hN⟩
  rw [mem_blk]
  intro a
  match a with
  | ⟨0, _⟩ =>
    show win0_4.index ⟨(i 0).val / 512, hN⟩ (0 : Fin 2) * 512 ≤ (i 0).val ∧ (i 0).val < win0_4.index ⟨(i 0).val / 512, hN⟩ (0 : Fin 2) * 512 + 512
    have e : win0_4.index ⟨(i 0).val / 512, hN⟩ (0 : Fin 2) = (i 0).val / 512 := e40
    omega
  | ⟨1, _⟩ =>
    show win0_4.index ⟨(i 0).val / 512, hN⟩ (1 : Fin 2) * 256 ≤ (i 1).val ∧ (i 1).val < win0_4.index ⟨(i 0).val / 512, hN⟩ (1 : Fin 2) * 256 + 256
    omega

/-- THE ARRAY after the run is the operator of the argument arrays. -/
theorem final (c : Dev nD) : (dats m 0 c).arrAt 4 cfg0.N = rbf (n := 131072) (X m c) (P m c) (W m c) :=
  (dats m 0 c).arrAt_eq_of_cover 4 (rbf (n := 131072) (X m c) (P m c) (W m c)) (fun t _ => flushed_eq m c t) cover

/-! ## The run, read -/

/-- Every weakly fair execution of the kernel's program terminates with the result array at the operator of the
    argument arrays, the arguments unchanged. -/
theorem run : θ_run defs (onTc (τ := τ) (main (F := Ideal))) ⟨m, fun _ => 0, ρ⟩ fun r => ∀ c : Dev nD,
      r.2.mem ((c : Thread nD τ).loc main_v3) = rbf (n := 131072) (X m c) (P m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Rbf.Kernel

end
-- ==== Proof.RbfReference.lean ====
/-
  The reference computes the radial-basis operator.

  Read one operation at a time, the reference's result at `(b, d)` is a sum over the 1024 prototypes of
  `exp(-((‖x_b‖² + ‖p_q‖²) - 2·⟨x_b, p_q⟩) / 2) · w[q, d]`: the two squared norms are host sums started at the
  word 0 (which is the extended real 0, so the start drops), broadcast along the other axis; the inner product is
  the first `dot_general`; the outer sum is the second.  That is `Cert.Rbf.rbf` term by term.
-/
import proofs.«156397_j43069932044620_1_alg».proof.Proof.Gen.ReferenceIdeal.Read
import proofs.«156397_j43069932044620_1_alg».proof.Proof.RbfSpec

noncomputable section

namespace Cert.Rbf.Reference

open Cert.ReferenceIdeal Cert.ReferenceIdeal.Gen Cert.ReferenceIdeal.Read
open Idealize.ShloMosaic Idealize.ShloMosaic.ValueIdx Cert.Rbf

variable (x : Mat 131072 256) (p w : Mat 1024 256)

/-- The broadcast row norms: at `(b, q)` the first addend is ‖x_b‖². -/
theorem sqx_apply (j : S131072x1024.Idx) : val_main_v7 (F := Ideal) x j = rowSq (n := 131072) x (j 0) := by
  rw [val_main_v7_apply, val_main_v2_apply, val_main_v1_apply, val_main_cst_apply]
  simp only [Ideal.ofBits_def, Ideal.ofBits_zero_f32, zero_add]
  refine Finset.sum_congr rfl fun k _ => ?_
  rw [val_main_v0_apply]
  have e : idx_main_v1 (idx_main_v2 (idx_main_v7 j)) k = ix2 (j 0) k :=
    funext fun a => Fin.ext (by match a with | ⟨0, _⟩ => rfl | ⟨1, _⟩ => rfl)
  rw [e]; rfl

/-- At `(b, q)` the second addend is ‖p_q‖². -/
theorem sqp_apply (j : S131072x1024.Idx) : val_main_v8 (F := Ideal) p j = rowSq (n := 1024) p (j 1) := by
  rw [val_main_v8_apply, val_main_v6_apply, val_main_v4_apply, val_main_cst_0_apply]
  simp only [Ideal.ofBits_def, Ideal.ofBits_zero_f32, zero_add]
  refine Finset.sum_congr rfl fun k _ => ?_
  rw [val_main_v3_apply]
  have e : idx_main_v4 (idx_main_v6 (idx_main_v8 j)) k = ix2 (j 1) k :=
    funext fun a => Fin.ext (by match a with | ⟨0, _⟩ => rfl | ⟨1, _⟩ => rfl)
  rw [e]; rfl

/-- The first product at `(b, q)` is ⟨x_b, p_q⟩. -/
theorem cross_apply (j : S131072x1024.Idx) : val_main_v5 (F := Ideal) x p j = inner (n := 131072) x p (j 0) (j 1) := by
  rw [val_main_v5_apply]
  refine Finset.sum_congr rfl fun k _ => ?_
  have el : lidx_main_v5 j k = ix2 (j 0) k :=
    funext fun a => Fin.ext (by match a with | ⟨0, _⟩ => rfl | ⟨1, _⟩ => rfl)
  have er : ridx_main_v5 j k = ix2 (j 1) k :=
    funext fun a => Fin.ext (by match a with | ⟨0, _⟩ => rfl | ⟨1, _⟩ => rfl)
  rw [el, er]
  rfl

/-- The exponential stage at `(b, q)` is the radial weight of row `b` against prototype `q`. -/
theorem weight_apply (j : S131072x1024.Idx) :
    val_main_v16 (F := Ideal) x p j
      = weight (rowSq (n := 131072) x (j 0)) (rowSq (n := 1024) p (j 1)) (inner (n := 131072) x p (j 0) (j 1)) := by
  rw [val_main_v16_apply, val_main_v15_apply, val_main_v13_apply, val_main_v12_apply, val_main_v9_apply,
    val_main_v11_apply, val_main_v10_apply, val_main_cst_1_apply, val_main_v14_apply, val_main_cst_2_apply,
    sqx_apply, sqp_apply, cross_apply]
  rfl

/-- The reference's result stage is the operator. -/
theorem result_eq : val_main_v17 (F := Ideal) x p w = rbf (n := 131072) x p w := by
  funext i
  rw [val_main_v17_apply]
  refine Finset.sum_congr rfl fun q _ => ?_
  rw [weight_apply]
  have er : ridx_main_v17 i q = ix2 q (i 1) :=
    funext fun a => Fin.ext (by match a with | ⟨0, _⟩ => rfl | ⟨1, _⟩ => rfl)
  rw [er]
  rfl

end Cert.Rbf.Reference

end
-- ==== Proof.lean ====
/-
  A radial-basis operator over 131072 rows `x_b` of length 256 against 1024 prototypes `p_q` with projection rows `w_q`:

      out[b, d] = ∑_q exp( -( (‖x_b‖² + ‖p_q‖²) - 2·⟨x_b, p_q⟩ ) / 2 ) · w[q, d].

  The kernel computes it 512 rows at a time: the host first takes each prototype's squared norm, and each of the 256
  grid points forms the 512 × 1024 distances from the rows' sums of squares, the norm row and one matrix product, takes
  the exponential of `(0 - dist) · 0.5`, and multiplies by the projection.  The reference computes the same formula on
  whole arrays with `-dist / 2`.  Over the extended reals a change of float format is the identity, a product
  accumulated into the zero array is the plain sum of products, a sum started at the word 0 is the plain sum, and
  halving by `· 0.5` or by `/ 2` agree on every extended real, so both programs end with `Cert.Rbf.rbf` of the three
  arguments (Proof/RbfSpec.lean): the reference operation by operation (Proof/RbfReference.lean), the kernel block by
  block — a point's payload is the operator on its rows (Proof/RbfBlock.lean) and the 256 blocks cover the array
  (Proof/RbfKernel.lean).  No law used needs the inputs to be finite.  The kernel read over the extended reals is
  the kernel's own text, operation for operation, so the idealization claim is `True`.
-/
import proofs.«156397_j43069932044620_1_alg».proof.Defs
import proofs.«156397_j43069932044620_1_alg».proof.Proof.Gen.Kernel
import proofs.«156397_j43069932044620_1_alg».proof.Proof.Gen.Kernel.Skeleton
import proofs.«156397_j43069932044620_1_alg».proof.Proof.Gen.Kernel.Launch
import proofs.«156397_j43069932044620_1_alg».proof.Proof.Gen.Kernel.Points
import proofs.«156397_j43069932044620_1_alg».proof.Proof.Gen.Kernel.Frame
import proofs.«156397_j43069932044620_1_alg».proof.Proof.Gen.KernelIdeal
import proofs.«156397_j43069932044620_1_alg».proof.Proof.Gen.KernelIdeal.Skeleton
import proofs.«156397_j43069932044620_1_alg».proof.Proof.Gen.KernelIdeal.Launch
import proofs.«156397_j43069932044620_1_alg».proof.Proof.Gen.KernelIdeal.Points
import proofs.«156397_j43069932044620_1_alg».proof.Proof.Gen.KernelIdeal.Frame
import proofs.«156397_j43069932044620_1_alg».proof.Proof.Gen.ReferenceIdeal
import proofs.«156397_j43069932044620_1_alg».proof.Proof.Gen.Pre_finite_inputs
import proofs.«156397_j43069932044620_1_alg».proof.Proof.Gen.KernelIdeal.Value
import proofs.«156397_j43069932044620_1_alg».proof.Proof.Gen.ReferenceIdeal.Run
import proofs.«156397_j43069932044620_1_alg».proof.Proof.Gen.ReferenceIdeal.Read
import proofs.«156397_j43069932044620_1_alg».proof.Proof.RbfKernel
import proofs.«156397_j43069932044620_1_alg».proof.Proof.RbfReference
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel over the extended reals is the kernel's own text: there is no rewrite to justify. -/
theorem preserves : Cert.preserves_Kernel_KernelIdeal := trivial

/-- From memories agreeing on the three arguments both programs end with the operator of those arguments in their
    result arrays. -/
theorem algebraic : Cert.algebraic_KernelIdeal_ReferenceIdeal := by
  intro m ρ m' ρ' _ hagree
  refine ⟨fun c => Cert.Rbf.rbf (n := 131072) (Cert.Rbf.Kernel.X m c) (Cert.Rbf.Kernel.P m c) (Cert.Rbf.Kernel.W m c),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]
  exact Cert.Rbf.Reference.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
